-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288 : Shape := ⟨1, ![524288]⟩
abbrev S10080x128 : Shape := ⟨2, ![10080, 128]⟩
abbrev S128 : Shape := ⟨1, ![128]⟩
abbrev S_ : Shape := ⟨0, ![]⟩

class Facts : Prop where
  bcast_S_S10080x128 : S_.BroadcastsInDim S10080x128 (![] : Fin 0 → Fin S10080x128.rank)
  reducesTo_S10080x128_S_d0_1 : S10080x128.ReducesTo [0, 1] S_
  h_S_ : 0 < S_.numel
  bcast_S_S128 : S_.BroadcastsInDim S128 (![] : Fin 0 → Fin S128.rank)
  reducesTo_S128_S_d0 : S128.ReducesTo [0] S_
  bcast_S_S524288 : S_.BroadcastsInDim S524288 (![] : Fin 0 → Fin S524288.rank)
  reducesTo_S524288_S_d0 : S524288.ReducesTo [0] S_

variable [Facts]

def fn {F : FTy → Type} [FloatOps F] (main_arg0 : IVec S524288 32) (main_arg1 : FVec F S10080x128 .f32) (main_arg2 : FVec F S128 .f32) : IVec S_ 1 :=
  let main_v0 : FVec F S10080x128 .f32 := Host.absf main_arg1
  let main_cst : FVec F S_ .f32 := constant S_ .f32 0x7F800000#32
  let main_v1 : FVec F S10080x128 .f32 := broadcastInDim S10080x128 ![] bcast_S_S10080x128 main_cst
  let main_v2 : IVec S10080x128 1 := cmpf .olt main_v0 main_v1
  let main_c : IVec S_ 1 := constantI S_ 1 1#1
  let main_v3 : IVec S_ 1 := (fun x v => Host.reduce IntOp.andi x v reducesTo_S10080x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S524288 32 := broadcastInDim S524288 ![] bcast_S_S524288 main_c_2
  let main_v10 : IVec S524288 1 := cmpi .sge main_arg0 main_v9
  let main_c_3 : IVec S_ 32 := constantI S_ 32 10080#32
  let main_v11 : IVec S524288 32 := broadcastInDim S524288 ![] bcast_S_S524288 main_c_3
  let main_v12 : IVec S524288 1 := cmpi .slt main_arg0 main_v11
  let main_v13 : IVec S524288 1 := andi main_v10 main_v12
  let main_c_4 : IVec S_ 1 := constantI S_ 1 1#1
  let main_v14 : IVec S_ 1 := (fun x v => Host.reduce IntOp.andi x v reducesTo_S524288_S_d0 h_S_) main_v13 main_c_4
  let main_v15 : IVec S_ 1 := andi main_v8 main_v14
  main_v15
-- ==== Kernel.lean ====
abbrev S524288 : Shape := ⟨1, ![524288]⟩
abbrev S10080x128 : Shape := ⟨2, ![10080, 128]⟩
abbrev S128 : Shape := ⟨1, ![128]⟩
abbrev S_ : Shape := ⟨0, ![]⟩
abbrev S512x1024x1 : Shape := ⟨3, ![512, 1024, 1]⟩
abbrev S10240x128 : Shape := ⟨2, ![10240, 128]⟩
abbrev S1x128 : Shape := ⟨2, ![1, 128]⟩
abbrev S512x1024x128 : Shape := ⟨3, ![512, 1024, 128]⟩
abbrev S1x1024x1 : Shape := ⟨3, ![1, 1024, 1]⟩
abbrev S1x1024x128 : Shape := ⟨3, ![1, 1024, 128]⟩
abbrev S1024x1 : Shape := ⟨2, ![1024, 1]⟩
abbrev S1024x128 : Shape := ⟨2, ![1024, 128]⟩
abbrev S1024x1024 : Shape := ⟨2, ![1024, 1024]⟩
abbrev S524288x128 : Shape := ⟨2, ![524288, 128]⟩

abbrev nBuf : Space → Nat
  | .hbm => 19
  | .vmem => 6
  | .smem => 0
  | _ => 0

abbrev bufTy : (tb : Table) → Fin (tcTables nBuf tb) → BufTy
  | .hbm, ⟨0, _⟩ => ⟨S524288, .i32⟩
  | .hbm, ⟨1, _⟩ => ⟨S10080x128, .f32⟩
  | .hbm, ⟨2, _⟩ => ⟨S128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S524288, .i32⟩
  | .hbm, ⟨7, _⟩ => ⟨S524288, .i32⟩
  | .hbm, ⟨8, _⟩ => ⟨S_, .i32⟩
  | .hbm, ⟨9, _⟩ => ⟨S524288, .i32⟩
  | .hbm, ⟨10, _⟩ => ⟨S524288, .i32⟩
  | .hbm, ⟨11, _⟩ => ⟨S512x1024x1, .i32⟩
  | .hbm, ⟨12, _⟩ => ⟨S_, .i32⟩
  | .hbm, ⟨13, _⟩ => ⟨S_, .f32⟩
  | .hbm, ⟨14, _⟩ => ⟨S10240x128, .f32⟩
  | .hbm, ⟨15, _⟩ => ⟨S10240x128, .bf16⟩
  | .hbm, ⟨16, _⟩ => ⟨S1x128, .f32⟩
  | .hbm, ⟨17, _⟩ => ⟨S512x1024x128, .f32⟩
  | .hbm, ⟨18, _⟩ => ⟨S524288x128, .f32⟩
  | .local _ .vmem, ⟨0, _⟩ => ⟨S1x1024x1, .i32⟩
  | .local _ .vmem, ⟨1, _⟩ => ⟨S1x1024x1, .i32⟩
  | .local _ .vmem, ⟨2, _⟩ => ⟨S10240x128, .bf16⟩
  | .local _ .vmem, ⟨3, _⟩ => ⟨S1x128, .f32⟩
  | .local _ .vmem, ⟨4, _⟩ => ⟨S1x1024x128, .f32⟩
  | .local _ .vmem, ⟨5, _⟩ => ⟨S1x1024x128, .f32⟩
  | _, _ => ⟨S524288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_c_1 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S524288 : S_.BroadcastsInDim S524288 (![] : Fin 0 → Fin S524288.rank)
  shapeCasts_S524288_S512x1024x1 : S524288.ShapeCasts S512x1024x1
  pads_S10080x128_S10240x128_01600_000 : S10080x128.Pads (![0, 0] : Fin 2 → Nat) ![160, 0] ![0, 0] S10240x128
  h_S_ : 0 < S_.numel
  bitsLt_bf16_f32 : FTy.bits .bf16 < FTy.bits .f32
  shapeCasts_S128_S1x128 : S128.ShapeCasts S1x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  iota_S1024x1024_d1_w32 : S1024x1024.Iotas .tc 32 [1]
  broadcasts_S1024x1_S1024x1024 : S1024x1.Broadcasts S1024x1024
  natLt_1_32 : 1 < 32
  inb_S10240x128_S1024x128_0_0 : ∀ a, (![0, 0] : Fin 2 → Nat) a + S1024x128.size a ≤ S10240x128.size a
  h_S1024x128 : 0 < S1024x128.numel
  shapeCasts_S1024x128_S1024x128 : S1024x128.ShapeCasts S1024x128
  inb_S10240x128_S1024x128_1024_0 : ∀ a, (![1024, 0] : Fin 2 → Nat) a + S1024x128.size a ≤ S10240x128.size a
  inb_S10240x128_S1024x128_2048_0 : ∀ a, (![2048, 0] : Fin 2 → Nat) a + S1024x128.size a ≤ S10240x128.size a
  inb_S10240x128_S1024x128_3072_0 : ∀ a, (![3072, 0] : Fin 2 → Nat) a + S1024x128.size a ≤ S10240x128.size a
  inb_S10240x128_S1024x128_4096_0 : ∀ a, (![4096, 0] : Fin 2 → Nat) a + S1024x128.size a ≤ S10240x128.size a
  inb_S10240x128_S1024x128_5120_0 : ∀ a, (![5120, 0] : Fin 2 → Nat) a + S1024x128.size a ≤ S10240x128.size a
  inb_S10240x128_S1024x128_6144_0 : ∀ a, (![6144, 0] : Fin 2 → Nat) a + S1024x128.size a ≤ S10240x128.size a
  inb_S10240x128_S1024x128_7168_0 : ∀ a, (![7168, 0] : Fin 2 → Nat) a + S1024x128.size a ≤ S10240x128.size a
  inb_S10240x128_S1024x128_8192_0 : ∀ a, (![8192, 0] : Fin 2 → Nat) a + S1024x128.size a ≤ S10240x128.size a
  inb_S10240x128_S1024x128_9216_0 : ∀ a, (![9216, 0] : Fin 2 → Nat) a + S1024x128.size a ≤ S10240x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  shapeCasts_S512x1024x128_S524288x128 : S512x1024x128.ShapeCasts S524288x128
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S512x1024x1.size a
  hwx0_0 : ∀ i : grid0.Coords, EltTy.bits .i32 = 32 ∨ (Rect.block (s := S512x1024x1) S1x1024x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S512x1024x128.size a
  hwx0_3 : ∀ i : grid0.Coords, EltTy.bits .f32 = 32 ∨ (Rect.block (s := S512x1024x128) S1x1024x128.size (cc0_transform_3 i) (hinb0_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v1) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288 : Shape := ⟨1, ![524288]⟩
abbrev S10080x128 : Shape := ⟨2, ![10080, 128]⟩
abbrev S128 : Shape := ⟨1, ![128]⟩
abbrev S_ : Shape := ⟨0, ![]⟩
abbrev S524288x1 : Shape := ⟨2, ![524288, 1]⟩
abbrev S1 : Shape := ⟨1, ![1]⟩
abbrev S1x1 : Shape := ⟨2, ![1, 1]⟩
abbrev S524288x128 : Shape := ⟨2, ![524288, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S524288, .i32⟩
  | .hbm, ⟨1, _⟩ => ⟨S10080x128, .f32⟩
  | .hbm, ⟨2, _⟩ => ⟨S128, .f32⟩
  | .hbm, ⟨3, _⟩ => ⟨S_, .i32⟩
  | .hbm, ⟨4, _⟩ => ⟨S524288, .i32⟩
  | .hbm, ⟨5, _⟩ => ⟨S524288, .i1⟩
  | .hbm, ⟨6, _⟩ => ⟨S_, .i32⟩
  | .hbm, ⟨7, _⟩ => ⟨S524288, .i32⟩
  | .hbm, ⟨8, _⟩ => ⟨S524288, .i32⟩
  | .hbm, ⟨9, _⟩ => ⟨S524288, .i32⟩
  | .hbm, ⟨10, _⟩ => ⟨S524288x1, .i32⟩
  | .hbm, ⟨11, _⟩ => ⟨S1, .i32⟩
  | .hbm, ⟨12, _⟩ => ⟨S_, .i32⟩
  | .hbm, ⟨13, _⟩ => ⟨S524288x1, .i32⟩
  | .hbm, ⟨14, _⟩ => ⟨S524288x1, .i1⟩
  | .hbm, ⟨15, _⟩ => ⟨S1x1, .i32⟩
  | .hbm, ⟨16, _⟩ => ⟨S524288x1, .i32⟩
  | .hbm, ⟨17, _⟩ => ⟨S524288x1, .i1⟩
  | .hbm, ⟨18, _⟩ => ⟨S524288x1, .i1⟩
  | .hbm, ⟨19, _⟩ => ⟨S_, .i1⟩
  | .hbm, ⟨20, _⟩ => ⟨S524288, .i1⟩
  | .hbm, ⟨21, _⟩ => ⟨S524288x128, .f32⟩
  | .hbm, ⟨22, _⟩ => ⟨S524288x128, .i1⟩
  | .hbm, ⟨23, _⟩ => ⟨S_, .f32⟩
  | .hbm, ⟨24, _⟩ => ⟨S524288x128, .f32⟩
  | .hbm, ⟨25, _⟩ => ⟨S524288x128, .f32⟩
  | .hbm, ⟨26, _⟩ => ⟨S1x128, .f32⟩
  | .hbm, ⟨27, _⟩ => ⟨S524288x128, .f32⟩
  | .hbm, ⟨28, _⟩ => ⟨S524288x128, .f32⟩
  | _, _ => ⟨S524288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x128_0 : S524288.BroadcastsInDim S524288x128 (![0] : Fin 1 → Fin S524288x128.rank)
  bcast_S_S524288x128 : S_.BroadcastsInDim S524288x128 (![] : Fin 0 → Fin S524288x128.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  gather_S10080x128_S524288x1_S524288x128_1_0_n_n_0_1_1128_wf : GatherDims.WF S10080x128 S524288x1 S524288x128 [1] [0] [] [0] [] 1 ![1, 128]

variable [Facts₀]

def gather_S10080x128_S524288x1_S524288x128_1_0_n_n_0_1_1128 : GatherDims S10080x128 S524288x1 S524288x128 where
  offsetDims := [1]
  collapsedSliceDims := [0]
  operandBatchingDims := []
  startIndicesBatchingDims := []
  startIndexMap := [0]
  indexVectorDim := 1
  sliceSizes := ![1, 128]
  wf := gather_S10080x128_S524288x1_S524288x128_1_0_n_n_0_1_1128_wf

class Facts : Prop extends Facts₀ where

variable [Facts]
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.KernelChunk.lean ====
/-
  One band of the one-hot product. The kernel walks the table in ten bands of 1024 rows. For the band starting at row
  off it builds the indicator matrix H[p, k] = 1 if token p's word equals off + k, else 0, and multiplies it into the
  band's rows: (H w)[p, e] = sum over k of H[p, k] w[k, e]. On the extended reals 0 x = 0 and 1 x = x for every x, the
  infinities included, so when the word is r the product's entry is w[r - off, e] if the band holds row r and 0 if not.
  The kernel's payloads are sums of such bands, by unfolding.
-/
import proofs.«418533_j26276609917323_3_alg».proof.Proof.Gen.KernelIdeal.Skeleton
import proofs.«418533_j26276609917323_3_alg».proof.Proof.LibMatProduct
import Idealize.ShloMosaic.Lib.KernelVsHost
import Idealize.ShloMosaic.Lib.Pipeline.Value
import Idealize.ShloMosaic.Lib.ValueIdx

noncomputable section

namespace Cert.KernelIdeal.Embed

open Idealize.ShloMosaic Idealize.ShloMosaic.ValueIdx Cert.KernelIdeal Cert.KernelIdeal.Gen Cert.Lib.MatProduct

section AnyValues

variable {F : FTy → Type} [FloatOps F]

/-- The indicator matrix of the band at off: entry (p, k) is the comparison of token p's word with off + k, as a float. -/
def hot (v1 : IVec S1024x1 32) (off : BitVec 32) : FVec F S1024x1024 .bf16 :=
  truncf .bf16 (sitofp .f32 (extui 32 (cmpi .eq (broadcastTo S1024x1024 v1 broadcasts_S1024x1_S1024x1024)
    (addi (broadcast S1024x1024 off) (iota .tc S1024x1024 32 [1] iota_S1024x1024_d1_w32))) natLt_1_32)) bitsLt_bf16_f32

/-- The band's product: the indicator matrix times the band's 1024 rows, into a zero accumulator. -/
def band (v1 : IVec S1024x1 32) (off : BitVec 32) (w : Vec F S1024x128 .bf16) : FVec F S1024x128 .f32 :=
  matmul dot_S1024x1024_S1024x128_S1024x128_1_0_0_1_n_n none (hot v1 off)
    (shapeCast S1024x128 w shapeCasts_S1024x128_S1024x128) (constant S1024x128 .f32 0x00000000#32)

/-- Bands 0 to 2 added onto a zero splat. -/
theorem pay2_eq (v0 : Vec F S1x1024x1 .i32) (a b c : Vec F S1024x128 .bf16) :
    k0_pay2 v0 a b c = addf (addf (addf (broadcast S1024x128 (Scalar.ofBits .f32 0x00000000#32)) (band (k0_pay1 v0) 0#32 a))
      (band (k0_pay1 v0) 1024#32 b)) (band (k0_pay1 v0) 2048#32 c) := rfl

/-- Bands 3 to 6 added onto what came before. -/
theorem pay4_eq (v1 : IVec S1024x1 32) (acc : FVec F S1024x128 .f32) (a b c d : Vec F S1024x128 .bf16) :
    k0_pay4 v1 acc k0_pay3 a b c d = addf (addf (addf (addf acc (band v1 3072#32 a)) (band v1 4096#32 b))
      (band v1 5120#32 c)) (band v1 6144#32 d) := rfl

/-- Bands 7 to 9 added onto what came before, then the bias row added to every row, laid out as a [1, 1024, 128] block. -/
theorem pay5_eq (v1 : IVec S1024x1 32) (acc : FVec F S1024x128 .f32) (a b c : Vec F S1024x128 .bf16) (bias : Vec F S1x128 .f32) :
    k0_pay5 v1 acc a b c bias = shapeCast S1x1024x128 (addf (addf (addf (addf acc (band v1 7168#32 a)) (band v1 8192#32 b))
      (band v1 9216#32 c)) (broadcastTo S1024x128 (shapeCast S1x128 bias shapeCasts_S1x128_S1x128) broadcasts_S1x128_S1024x128))
      shapeCasts_S1024x128_S1x1024x128 := rfl

end AnyValues

/-! ## At the extended reals -/

/-- The product's dimension numbers are the plain rows-by-contraction ones. -/
theorem dot_eq_plain : dot_S1024x1024_S1024x128_S1024x128_1_0_0_1_n_n = DotDims.plain 1024 1024 128 := rfl

/-- The indicator's entry: 1 where the word is off + k, 0 elsewhere. -/
theorem hot_apply (v1 : IVec S1024x1 32) (off : BitVec 32) (p k : Fin 1024) :
    hot (F := Ideal) v1 off (ix2 p k)
      = if v1 (ix2 p (0 : Fin 1)) = off + BitVec.ofNat 32 k.val then (1 : EReal) else 0 := by
  show ((((IntOp.cmpi .eq (broadcastTo S1024x1024 v1 broadcasts_S1024x1_S1024x1024 (ix2 p k))
    (IntOp.addi off (iota .tc S1024x1024 32 [1] iota_S1024x1024_d1_w32 (ix2 p k)))).setWidth 32).toInt : ℝ) : EReal) = _
  rw [toInt_setWidth_bit, broadcastTo_apply v1 broadcasts_S1024x1_S1024x1024 (ix2 p k) (ix2 p (0 : Fin 1))
    (fun a => by match a with | ⟨0, _⟩ => rfl | ⟨1, _⟩ => rfl), iota_single_apply]
  show ((((BitVec.ofBool (v1 (ix2 p (0 : Fin 1)) == off + BitVec.ofNat 32 k.val)).toNat : ℤ) : ℝ) : EReal) = _
  by_cases h : v1 (ix2 p (0 : Fin 1)) = off + BitVec.ofNat 32 k.val
  · rw [if_pos h, beq_iff_eq.mpr h]; simp
  · rw [if_neg h, beq_eq_false_iff_ne.mpr h]; simp

/-- The band's product at (p, e): the one-hot sum over the band's rows. -/
theorem band_apply (v1 : IVec S1024x1 32) (off : BitVec 32) (w : Vec Ideal S1024x128 .bf16) (p : Fin 1024) (e : Fin 128) :
    band (F := Ideal) v1 off w (ix2 p e)
      = ∑ k : Fin 1024, (if v1 (ix2 p (0 : Fin 1)) = off + BitVec.ofNat 32 k.val then (1 : EReal) else 0) * w (ix2 k e) := by
  unfold band
  rw [dot_eq_plain, matmul_plain_zero_eq, matProd_ix2, shapeCast_self]
  exact Finset.sum_congr rfl fun k _ => by rw [hot_apply]

/-- Two words below 2^32: the word of r is the word of off plus the word of k exactly when r = off + k. -/
theorem word_eq_iff {r o k : Nat} (hr : r < 2 ^ 32) (hok : o + k < 2 ^ 32) :
    BitVec.ofNat 32 r = BitVec.ofNat 32 o + BitVec.ofNat 32 k ↔ r = o + k := by
  rw [← BitVec.ofNat_add]
  constructor
  · intro h
    have := congrArg BitVec.toNat h
    simp only [BitVec.toNat_ofNat] at this
    rw [Nat.mod_eq_of_lt hr, Nat.mod_eq_of_lt hok] at this
    exact this
  · intro h; rw [h]

/-- The one-hot sum collapses: if token p's word is r, the band at o holds row r - o of its rows when o ≤ r < o + 1024,
    and contributes 0 otherwise. No finiteness is needed: 0 x = 0 for every extended real x. -/
theorem band_select (v1 : IVec S1024x1 32) (o : Nat) (w : Vec Ideal S1024x128 .bf16) (p : Fin 1024) (e : Fin 128)
    (r : Nat) (hr : r < 2 ^ 32) (ho : o + 1024 ≤ 2 ^ 32) (hv : v1 (ix2 p (0 : Fin 1)) = BitVec.ofNat 32 r) :
    band (F := Ideal) v1 (BitVec.ofNat 32 o) w (ix2 p e)
      = if h : o ≤ r ∧ r < o + 1024 then w (ix2 ⟨r - o, by omega⟩ e) else 0 := by
  rw [band_apply, hv]
  by_cases h : o ≤ r ∧ r < o + 1024
  · rw [dif_pos h, Finset.sum_eq_single (⟨r - o, by omega⟩ : Fin 1024)]
    · rw [if_pos ((word_eq_iff hr (by show o + (r - o) < 2 ^ 32; omega)).mpr (by show r = o + (r - o); omega)), one_mul]
    · intro k _ hk
      rw [if_neg (fun hh => hk (Fin.ext (by
        have := (word_eq_iff hr (by have := k.isLt; omega)).mp hh
        show k.val = r - o; omega))), zero_mul]
    · intro hh; exact absurd (Finset.mem_univ _) hh
  · rw [dif_neg h]
    refine Finset.sum_eq_zero fun k _ => ?_
    rw [if_neg (fun hh => h (by
      have := (word_eq_iff hr (by have := k.isLt; omega)).mp hh
      have := k.isLt; omega)), zero_mul]

end Cert.KernelIdeal.Embed

end
-- ==== Proof.KernelBody.lean ====
/-
  What one grid point stores. The body reads its 1024 tokens' words x0 : [1, 1024, 1], the whole padded table
  x1 : [10240, 128] in ten bands of 1024 rows, and the bias row x2 : [1, 128], and stores a [1, 1024, 128] block. If
  token p's word is r < 10240, exactly one band holds row r, the others contribute 0, and the stored entry (0, p, e) is
  x1[r, e] + x2[0, e].
-/
import proofs.«418533_j26276609917323_3_alg».proof.Proof.Gen.KernelIdeal.Frame
import proofs.«418533_j26276609917323_3_alg».proof.Proof.KernelChunk

noncomputable section

namespace Cert.KernelIdeal.Embed

open Idealize.ShloMosaic Idealize.ShloMosaic.ValueIdx Cert.KernelIdeal Cert.KernelIdeal.Gen

/-- Two adjacent row ranges glue: a value taken on [a, b) plus the same value taken on [b, c) is it taken on [a, c). -/
theorem range_glue (X : EReal) (r a b c : Nat) (hab : a ≤ b) (hbc : b ≤ c) :
    (if a ≤ r ∧ r < b then X else 0) + (if b ≤ r ∧ r < c then X else 0) = if a ≤ r ∧ r < c then X else 0 := by
  by_cases h1 : a ≤ r ∧ r < b
  · rw [if_pos h1, if_neg (by omega), if_pos (by omega), add_zero]
  · by_cases h2 : b ≤ r ∧ r < c
    · rw [if_neg h1, if_pos h2, if_pos (by omega), zero_add]
    · rw [if_neg h1, if_neg h2, if_neg (by omega), zero_add]

/-- The band whose rows are rows [o, hi) of the table: its product at (p, e) is the table's row r when o ≤ r < hi. -/
theorem band_row (v1 : IVec S1024x1 32) (o hi : Nat) (hhi : hi = o + 1024)
    (inb : ∀ a, (![o, 0] : Fin 2 → Nat) a + S1024x128.size a ≤ S10240x128.size a)
    (x1 : Vec Ideal S10240x128 .bf16) (p : Fin 1024) (e : Fin 128) (r : Nat) (hr : r < 10240)
    (hv : v1 (ix2 p (0 : Fin 1)) = BitVec.ofNat 32 r) :
    band (F := Ideal) v1 (BitVec.ofNat 32 o) (View.ld x1 (Rect.unit (s := S10240x128) ![o, 0] S1024x128.size inb)) (ix2 p e)
      = if o ≤ r ∧ r < hi then x1 (ix2 ⟨r, hr⟩ e) else 0 := by
  have ho : o + 1024 ≤ 10240 := inb 0
  subst hhi
  rw [band_select v1 o _ p e r (by omega) (by omega) hv]
  by_cases h : o ≤ r ∧ r < o + 1024
  · rw [dif_pos h, if_pos h]
    show x1 ((Rect.unit (s := S10240x128) ![o, 0] S1024x128.size inb).idx (ix2 ⟨r - o, by omega⟩ e)) = _
    refine congrArg x1 (funext fun a => Fin.ext ?_)
    match a with
    | ⟨0, _⟩ => show o + 1 * (r - o) = r; omega
    | ⟨1, _⟩ => show 0 + 1 * e.val = e.val; omega
  · rw [dif_neg h, if_neg h]

theorem zeros3 : (![0, 0, 0] : Fin 3 → Nat) = fun _ => 0 := by
  funext a; match a with | ⟨0, _⟩ => rfl | ⟨1, _⟩ => rfl | ⟨2, _⟩ => rfl

theorem zeros2 : (![0, 0] : Fin 2 → Nat) = fun _ => 0 := by
  funext a; match a with | ⟨0, _⟩ => rfl | ⟨1, _⟩ => rfl

/-- The stored block at (0, p, e). -/
theorem body_apply (x0 : Vec Ideal S1x1024x1 .i32) (x1 : Vec Ideal S10240x128 .bf16) (x2 : Vec Ideal S1x128 .f32)
    (p : Fin 1024) (e : Fin 128) (r : Nat) (hr : r < 10240)
    (hx : x0 (ix3 (0 : Fin 1) p (0 : Fin 1)) = BitVec.ofNat 32 r) :
    out0_3 (F := Ideal) x0 x1 x2 (ix3 (0 : Fin 1) p e) = x1 (ix2 ⟨r, hr⟩ e) + x2 (ix2 (0 : Fin 1) e) := by
  have hv : k0_pay1 (F := Ideal) (View.ld x0 r0_0) (ix2 p (0 : Fin 1)) = BitVec.ofNat 32 r := by
    unfold k0_pay1
    rw [View.ld_unit_zero zeros3]
    rw [shapeCast_dropUnit_apply ![1024, 1] x0 shapeCasts_S1x1024x1_S1024x1 (ix2 p (0 : Fin 1)), ← hx]
    refine congrArg x0 (funext fun a => ?_)
    match a with
    | ⟨0, _⟩ => rfl
    | ⟨1, _⟩ => rfl
    | ⟨2, _⟩ => rfl
  unfold out0_3
  rw [View.canon_unit_zero zeros3, pay5_eq, pay4_eq, pay2_eq]
  generalize k0_pay1 (F := Ideal) (View.ld x0 r0_0) = v1 at hv
  rw [shapeCast_addUnit_apply ![1024, 128] _ shapeCasts_S1024x128_S1x1024x128 (ix3 (0 : Fin 1) p e)]
  have hj : (fun a : Fin 2 => (ix3 (0 : Fin 1) p e) a.succ) = ix2 p e := by
    funext a; match a with | ⟨0, _⟩ => rfl | ⟨1, _⟩ => rfl
  rw [hj]
  simp only [addf_apply]
  rw [band_row v1 0 1024 rfl _ x1 p e r hr hv, band_row v1 1024 2048 rfl _ x1 p e r hr hv,
    band_row v1 2048 3072 rfl _ x1 p e r hr hv, band_row v1 3072 4096 rfl _ x1 p e r hr hv,
    band_row v1 4096 5120 rfl _ x1 p e r hr hv, band_row v1 5120 6144 rfl _ x1 p e r hr hv,
    band_row v1 6144 7168 rfl _ x1 p e r hr hv, band_row v1 7168 8192 rfl _ x1 p e r hr hv,
    band_row v1 8192 9216 rfl _ x1 p e r hr hv, band_row v1 9216 10240 rfl _ x1 p e r hr hv]
  have hz : broadcast S1024x128 (Scalar.ofBits (F := Ideal) .f32 0x00000000#32) (ix2 p e) = (0 : EReal) := by
    show Ideal.ofBits .f32 0x00000000#32 = 0
    exact Ideal.ofBits_zero_f32
  rw [hz, zero_add, range_glue _ r 0 1024 2048 (by omega) (by omega), range_glue _ r 0 2048 3072 (by omega) (by omega),
    range_glue _ r 0 3072 4096 (by omega) (by omega), range_glue _ r 0 4096 5120 (by omega) (by omega),
    range_glue _ r 0 5120 6144 (by omega) (by omega), range_glue _ r 0 6144 7168 (by omega) (by omega),
    range_glue _ r 0 7168 8192 (by omega) (by omega), range_glue _ r 0 8192 9216 (by omega) (by omega),
    range_glue _ r 0 9216 10240 (by omega) (by omega), if_pos ⟨Nat.zero_le r, hr⟩]
  congr 1
  rw [broadcastTo_apply _ broadcasts_S1x128_S1024x128 (ix2 p e) (ix2 (0 : Fin 1) e)
    (fun a => by match a with | ⟨0, _⟩ => rfl | ⟨1, _⟩ => rfl), shapeCast_self, View.ld_unit_zero zeros2]

end Cert.KernelIdeal.Embed

end
-- ==== Proof.Spec.lean ====
/-
  The lookup both programs compute. A token array elt : [524288] of 32-bit words, a table W : [10080, 128] and a
  bias b : [128] over the extended reals give the array whose entry (n, e) is W[row n, e] + b[e], where row n is the
  word elt[n] read as a signed integer and kept inside the table's rows [0, 10079]. When every word already names a
  row (InRange) the keeping does nothing and row n is the word's own value.
-/
import Idealize.ShloMosaic.Lib.ValueIdx
import Idealize.ShloMosaic.PureOps.Ideal

noncomputable section

namespace Cert.Embed

open Idealize.ShloMosaic Idealize.ShloMosaic.ValueIdx

/-- Every token's word, read signed, names a row of the table. -/
def InRange (elt : IVec ⟨1, ![524288]⟩ 32) : Prop :=
  ∀ n : Fin 524288, 0 ≤ (elt (ix1 n)).toInt ∧ (elt (ix1 n)).toInt < 10080

/-- The row token n selects: its word read signed, kept inside [0, 10079]. -/
def row (elt : IVec ⟨1, ![524288]⟩ 32) (n : Fin 524288) : Fin 10080 :=
  ⟨min (elt (ix1 n)).toInt.toNat (10080 - 1), by omega⟩

/-- Entry (n, e) of the result: the selected row's column e, plus the bias at e. -/
def lookup (elt : IVec ⟨1, ![524288]⟩ 32) (W : FVec Ideal ⟨2, ![10080, 128]⟩ .f32) (b : FVec Ideal ⟨1, ![128]⟩ .f32) :
    FVec Ideal ⟨2, ![524288, 128]⟩ .f32 :=
  fun i => W (ix2 (row elt ⟨(i 0).val, idx2_lt0 i⟩) ⟨(i 1).val, idx2_lt1 i⟩) + b (ix1 ⟨(i 1).val, idx2_lt1 i⟩)

theorem lookup_ix2 (elt : IVec ⟨1, ![524288]⟩ 32) (W : FVec Ideal ⟨2, ![10080, 128]⟩ .f32) (b : FVec Ideal ⟨1, ![128]⟩ .f32)
    (n : Fin 524288) (e : Fin 128) : lookup elt W b (ix2 n e) = W (ix2 (row elt n) e) + b (ix1 e) := rfl

/-- In range, the word's unsigned value is the row. -/
theorem row_val_of_inRange {elt : IVec ⟨1, ![524288]⟩ 32} (h : InRange elt) (n : Fin 524288) :
    (row elt n).val = (elt (ix1 n)).toNat ∧ (elt (ix1 n)).toNat < 10080 := by
  obtain ⟨h0, h1⟩ := h n
  have hnat : (elt (ix1 n)).toInt = ((elt (ix1 n)).toNat : Int) := by
    rw [BitVec.toInt_eq_toNat_cond] at h0 h1 ⊢
    split_ifs at h0 h1 ⊢ with hc
    · rfl
    · have := (elt (ix1 n)).isLt; omega
  refine ⟨?_, by omega⟩
  show min (elt (ix1 n)).toInt.toNat (10080 - 1) = _
  rw [hnat] at h1 ⊢
  simp only [Int.toNat_natCast]
  omega

end Cert.Embed

end
-- ==== Proof.KernelHost.lean ====
/-
  The arrays the kernel's region reads, as the host lines before it leave them. The words are kept inside
  [0, 10079] (a signed max with 0, then a signed min with 10079) and laid out [512, 1024, 1], so tile t's token p is token
  1024 t + p. The table gets 160 zero rows below it, [10240, 128]; rows below 10080 are the table's own. The bias is laid
  out as one row, [1, 128]. When every word already names a row, keeping it changes nothing.
-/
import proofs.«418533_j26276609917323_3_alg».proof.Proof.Gen.KernelIdeal.Frame
import proofs.«418533_j26276609917323_3_alg».proof.Proof.Spec
import Idealize.ShloMosaic.Lib.StableHlo.Run
import Idealize.ShloMosaic.Lib.KernelVsHost
import Idealize.ShloMosaic.Lib.Pipeline.Value
import Idealize.ShloMosaic.Lib.ValueIdx

noncomputable section

namespace Cert.KernelIdeal.Embed

open Idealize.ShloMosaic Idealize.ShloMosaic.TcCoe Idealize.ShloMosaic.ValueIdx Idealize.SL.Sem Idealize.ShloMosaic.StableHlo
open Cert.KernelIdeal Cert.KernelIdeal.Gen

/-- The words kept inside the table's rows: max with 0, then min with 10079, both signed. -/
def kept (elt : IVec S524288 32) : IVec S524288 32 :=
  minsi (broadcastInDim S524288 ![] bcast_S_S524288 (constantI S_ 32 10079#32))
    (maxsi (broadcastInDim S524288 ![] bcast_S_S524288 (constantI S_ 32 0#32)) elt)

/-- The table with its 160 zero rows. -/
def padded (W : FVec Ideal S10080x128 .f32) : FVec Ideal S10240x128 .bf16 :=
  truncf .bf16 (pad S10240x128 ![0, 0] ![160, 0] ![0, 0] W (sitofp (F := Ideal) .f32 (constantI S_ 32 0#32))
    pads_S10080x128_S10240x128_01600_000 h_S_) bitsLt_bf16_f32

section Arrays

variable (m : (ℓ : Loc nD τ sig) → Buf (Elt Ideal) ℓ)

/-- The words' array at the region's entry. -/
theorem V_words (c : Dev nD) : (V m c main_v1 : IVec S512x1024x1 32)
    = shapeCast S512x1024x1 (kept (m ((c : Thread nD τ).loc main_arg0))) shapeCasts_S524288_S512x1024x1 := by
  dsimp only [V, V0]
  simp only [hostOps0, hostOps0_1, hostOps0_2, hostOps0_3, hostOps0_4, List.flatten_cons, List.flatten_nil, List.append_nil,
    List.cons_append, List.nil_append]
  after_results
  rfl

/-- The table's array at the region's entry. -/
theorem V_table (c : Dev nD) : (V m c main_v3 : FVec Ideal S10240x128 .bf16) = padded (m ((c : Thread nD τ).loc main_arg1)) := by
  dsimp only [V, V0]
  simp only [hostOps0, hostOps0_1, hostOps0_2, hostOps0_3, hostOps0_4, List.flatten_cons, List.flatten_nil, List.append_nil,
    List.cons_append, List.nil_append]
  after_results
  rfl

/-- The bias row's array at the region's entry. -/
theorem V_bias (c : Dev nD) : (V m c main_v4 : FVec Ideal S1x128 .f32)
    = shapeCast S1x128 (m ((c : Thread nD τ).loc main_arg2)) shapeCasts_S128_S1x128 := by
  dsimp only [V, V0]
  simp only [hostOps0, hostOps0_1, hostOps0_2, hostOps0_3, hostOps0_4, List.flatten_cons, List.flatten_nil, List.append_nil,
    List.cons_append, List.nil_append]
  after_results
  rfl

end Arrays

/-! ## Each read at an index -/

/-- A word that names a row is kept as it is. -/
theorem kept_of_inRange {elt : IVec S524288 32} (h : Cert.Embed.InRange elt) (n : Fin 524288) :
    kept elt (ix1 n) = elt (ix1 n) := by
  obtain ⟨h0, h1⟩ := h n
  show IntOp.minsi (10079#32) (IntOp.maxsi (0#32) (elt (ix1 n))) = elt (ix1 n)
  have hmax : IntOp.maxsi (0#32) (elt (ix1 n)) = elt (ix1 n) := by
    unfold IntOp.maxsi
    rw [if_neg]
    rw [BitVec.slt_iff_toInt_lt, show (0#32 : BitVec 32).toInt = 0 from by decide]
    omega
  rw [hmax]
  unfold IntOp.minsi
  rw [if_neg]
  rw [BitVec.slt_iff_toInt_lt, show (10079#32 : BitVec 32).toInt = 10079 from by decide]
  omega

/-- Tile t's token p is token 1024 t + p. -/
theorem words_apply (x : IVec S524288 32) (t : Fin 512) (p : Fin 1024) :
    shapeCast S512x1024x1 x shapeCasts_S524288_S512x1024x1 (ix3 t p (0 : Fin 1))
      = x (ix1 ⟨t.val * 1024 + p.val, by have := t.isLt; have := p.isLt; omega⟩) := by
  refine shapeCast_apply x shapeCasts_S524288_S512x1024x1 _ _ ?_
  rw [Shape.rowMajor_val_one, Shape.rowMajor_val_three]
  show t.val * 1024 + p.val = (t.val * 1024 + p.val) * 1 + 0
  omega

/-- A row of the padded table below 10080 is the table's row. -/
theorem padded_apply (W : FVec Ideal S10080x128 .f32) (r : Fin 10080) (e : Fin 128) :
    padded W (ix2 ⟨r.val, by have := r.isLt; omega⟩ e) = W (ix2 r e) := by
  show pad S10240x128 ![0, 0] ![160, 0] ![0, 0] W (sitofp (F := Ideal) .f32 (constantI S_ 32 0#32))
    pads_S10080x128_S10240x128_01600_000 h_S_ (ix2 ⟨r.val, by have := r.isLt; omega⟩ e) = _
  refine pad_apply_of_inside _ _ _ W _ _ _ _ (ix2 r e) (fun a => ?_)
  match a with
  | ⟨0, _⟩ => show r.val = 0 + r.val * (0 + 1); omega
  | ⟨1, _⟩ => show e.val = 0 + e.val * (0 + 1); omega

/-- The bias row's entry e is the bias at e. -/
theorem bias_apply (b : FVec Ideal S128 .f32) (e : Fin 128) :
    shapeCast S1x128 b shapeCasts_S128_S1x128 (ix2 (0 : Fin 1) e) = b (ix1 e) := by
  refine shapeCast_apply b shapeCasts_S128_S1x128 _ _ ?_
  rw [Shape.rowMajor_val_one, Shape.rowMajor_val_two]
  show e.val = 0 * 128 + e.val
  omega

end Cert.KernelIdeal.Embed

end
-- ==== Proof.KernelFinal.lean ====
/-
  From the blocks to the result. Grid point t stages tile t of the words, the whole padded table and the bias row, and
  writes tile t of the output, [512, 1024, 128]. With every word naming a row, what point t writes is tile t of ONE
  function of the three argument arrays: entry (t, p, e) is the lookup at token 1024 t + p and column e. The 512 tiles
  cover the output, so after the run the output is that function; the last host line lays it out [524288, 128], which
  reads (n, e) at (n / 1024, n mod 1024, e), and that is the lookup at (n, e).
-/
import proofs.«418533_j26276609917323_3_alg».proof.Proof.Gen.KernelIdeal.Frame
import proofs.«418533_j26276609917323_3_alg».proof.Proof.KernelBody
import proofs.«418533_j26276609917323_3_alg».proof.Proof.KernelHost
import proofs.«418533_j26276609917323_3_alg».proof.Proof.Spec
import Idealize.ShloMosaic.Lib.StableHlo.Run
import Idealize.ShloMosaic.Lib.Pipeline.Value
import Idealize.ShloMosaic.PureOps.Ideal

noncomputable section

namespace Cert.KernelIdeal.Embed

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

/-- The output in tiles: entry (t, p, e) is the lookup at token 1024 t + p, column e. -/
def tiles (elt : IVec S524288 32) (W : FVec Ideal S10080x128 .f32) (b : FVec Ideal S128 .f32) : FVec Ideal S512x1024x128 .f32 :=
  fun i => Cert.Embed.lookup elt W b
    (ix2 ⟨(i 0).val * 1024 + (i 1).val, by have h0 : (i 0).val < 512 := (i 0).isLt; have h1 : (i 1).val < 1024 := (i 1).isLt; omega⟩
      ⟨(i 2).val, (i 2).isLt⟩)

theorem tiles_ix3 (elt : IVec S524288 32) (W : FVec Ideal S10080x128 .f32) (b : FVec Ideal S128 .f32)
    (t : Fin 512) (p : Fin 1024) (e : Fin 128) :
    tiles elt W b (ix3 t p e)
      = Cert.Embed.lookup elt W b (ix2 ⟨t.val * 1024 + p.val, by have := t.isLt; have := p.isLt; omega⟩ e) := rfl

/-- The printed index maps over the 512 points: the words' and the output's tile index is the point, every other block
    index is 0. -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

section Blocks

variable (m : (ℓ : Loc nD τ sig) → Buf (Elt Ideal) ℓ)

/-- The three input blocks at a point, at their literal types. -/
abbrev wordsBlk (c : Dev nD) (t : Fin cfg0.N) : Vec Ideal S1x1024x1 .i32 := iblk m c 0 t
abbrev tableBlk (c : Dev nD) (t : Fin cfg0.N) : Vec Ideal S10240x128 .bf16 := iblk m c 1 t
abbrev biasBlk (c : Dev nD) (t : Fin cfg0.N) : Vec Ideal S1x128 .f32 := iblk m c 2 t

/-- The point as a tile number. -/
abbrev tileOf (t : Fin cfg0.N) : Fin 512 := ⟨t.val, lt_of_lt_of_eq t.isLt N_0⟩

/-- The words' block at point t is tile t of the words' array. -/
theorem wordsBlk_apply (c : Dev nD) (t : Fin cfg0.N) (p : Fin 1024) :
    wordsBlk m c t (ix3 (0 : Fin 1) p (0 : Fin 1)) = (V m c main_v1 : IVec S512x1024x1 32) (ix3 (tileOf t) p (0 : Fin 1)) := by
  obtain ⟨e0, e1, e2, -⟩ := idx_facts t
  show (V m c main_v1 : IVec S512x1024x1 32) (((cfg0.win 0).blk t).view.emb (ix3 (0 : Fin 1) p (0 : Fin 1))) = _
  refine congrArg (V m c main_v1 : IVec S512x1024x1 32) (funext fun a => Fin.ext ?_)
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 1 + 1 * 0 = 0; omega

/-- The table's block at every point is the whole padded table. -/
theorem tableBlk_apply (c : Dev nD) (t : Fin cfg0.N) (r : Fin 10240) (e : Fin 128) :
    tableBlk m c t (ix2 r e) = (V m c main_v3 : FVec Ideal S10240x128 .bf16) (ix2 r e) := by
  obtain ⟨-, -, -, e3, e4, -⟩ := idx_facts t
  show (V m c main_v3 : FVec Ideal S10240x128 .bf16) (((cfg0.win 1).blk t).view.emb (ix2 r e)) = _
  refine congrArg (V m c main_v3 : FVec Ideal S10240x128 .bf16) (funext fun a => Fin.ext ?_)
  match a with
  | ⟨0, _⟩ => show win0_1.index t (0 : Fin 2) * 10240 + 1 * r.val = r.val; omega
  | ⟨1, _⟩ => show win0_1.index t (1 : Fin 2) * 128 + 1 * e.val = e.val; omega

/-- The bias block at every point is the whole bias row. -/
theorem biasBlk_apply (c : Dev nD) (t : Fin cfg0.N) (e : Fin 128) :
    biasBlk m c t (ix2 (0 : Fin 1) e) = (V m c main_v4 : FVec Ideal S1x128 .f32) (ix2 (0 : Fin 1) e) := by
  obtain ⟨-, -, -, -, -, e5, e6, -⟩ := idx_facts t
  show (V m c main_v4 : FVec Ideal S1x128 .f32) (((cfg0.win 2).blk t).view.emb (ix2 (0 : Fin 1) e)) = _
  refine congrArg (V m c main_v4 : FVec Ideal S1x128 .f32) (funext fun a => Fin.ext ?_)
  match a with
  | ⟨0, _⟩ => show win0_2.index t (0 : Fin 2) * 1 + 1 * 0 = 0; omega
  | ⟨1, _⟩ => show win0_2.index t (1 : Fin 2) * 128 + 1 * e.val = e.val; omega

/-- Where the output's block at point t sits: entry (0, p, e) of the block is entry (t, p, e) of the array. -/
theorem outBlk_emb (t : Fin cfg0.N) (p : Fin 1024) (e : Fin 128) :
    ((cfg0.win 3).blk t).view.emb (ix3 (0 : Fin 1) p e) = ix3 (tileOf t) p e := by
  obtain ⟨-, -, -, -, -, -, -, e7, e8, e9⟩ := idx_facts t
  refine funext fun a => Fin.ext ?_
  match a with
  | ⟨0, _⟩ => show win0_3.index t (0 : Fin 3) * 1 + 1 * 0 = t.val; omega
  | ⟨1, _⟩ => show win0_3.index t (1 : Fin 3) * 1024 + 1 * p.val = p.val; omega
  | ⟨2, _⟩ => show win0_3.index t (2 : Fin 3) * 128 + 1 * e.val = e.val; omega

/-- WHAT POINT t WRITES BACK is tile t of the lookup, when every word names a row. -/
theorem flushed_eq (c : Dev nD) (hr : Cert.Embed.InRange (m ((c : Thread nD τ).loc main_arg0))) (t : Fin cfg0.N) :
    (dats m 0 c).flushed 3 t = ((cfg0.win 3).blk t).view.read (Elt Ideal)
      (tiles (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  funext j
  obtain ⟨z, p, e, rfl⟩ : ∃ (z : Fin 1) (p : Fin 1024) (e : Fin 128), j = ix3 z p e := ⟨j 0, j 1, j 2, eq_ix3 j⟩
  obtain rfl : z = 0 := Subsingleton.elim _ _
  show out0_3 (F := Ideal) (wordsBlk m c t) (tableBlk m c t) (biasBlk m c t) (ix3 (0 : Fin 1) p e)
    = tiles (m ((c : Thread nD τ).loc main_arg0)) (m ((c : Thread nD τ).loc main_arg1)) (m ((c : Thread nD τ).loc main_arg2))
        (((cfg0.win 3).blk t).view.emb (ix3 (0 : Fin 1) p e))
  rw [outBlk_emb, tiles_ix3, Cert.Embed.lookup_ix2]
  obtain ⟨hrow, hlt⟩ := Cert.Embed.row_val_of_inRange hr ⟨(tileOf t).val * 1024 + p.val, by have := (tileOf t).isLt; have := p.isLt; omega⟩
  have hword : wordsBlk m c t (ix3 (0 : Fin 1) p (0 : Fin 1))
      = BitVec.ofNat 32 ((m ((c : Thread nD τ).loc main_arg0) : IVec S524288 32)
          (ix1 ⟨(tileOf t).val * 1024 + p.val, by have := (tileOf t).isLt; have := p.isLt; omega⟩)).toNat := by
    rw [wordsBlk_apply, V_words, words_apply, kept_of_inRange hr, BitVec.ofNat_toNat, BitVec.setWidth_eq]
  refine (body_apply (wordsBlk m c t) (tableBlk m c t) (biasBlk m c t) p e _ (by omega) hword).trans ?_
  rw [tableBlk_apply, V_table, biasBlk_apply, V_bias, bias_apply]
  refine congrArg (· + _) ?_
  refine (padded_apply _ ⟨_, hlt⟩ e).trans ?_
  exact congrArg (fun q => (m ((c : Thread nD τ).loc main_arg1) : FVec Ideal S10080x128 .f32) (ix2 q e)) (Fin.ext hrow.symm)

/-- An index of the output is in point t's block exactly when each coordinate is in the block's range on its axis. -/
theorem mem_blk (t : Fin cfg0.N) (i : S512x1024x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v5).slice (win0_3.rect t)).set ↔ _
  rw [View.set_slice_whole, Rect.mem_set_unit]
  exact Iff.rfl

/-- The 512 tiles cover the output: index (a, p, e) is in the block of point a. -/
theorem cover (i : S512x1024x128.Idx) :
    ∃ t : Fin cfg0.N, (cfg0.win 3).flush t = true ∧ i ∈ ((cfg0.win 3).blk t).view.set := by
  have h0 : (i 0).val < 512 := (i 0).isLt
  have h1 : (i 1).val < 1024 := (i 1).isLt
  have h2 : (i 2).val < 128 := (i 2).isLt
  refine ⟨⟨(i 0).val, lt_of_lt_of_eq h0 N_0.symm⟩, flush0_3 _, ?_⟩
  rw [mem_blk]
  obtain ⟨-, -, -, -, -, -, -, e7, e8, e9⟩ := idx_facts ⟨(i 0).val, lt_of_lt_of_eq h0 N_0.symm⟩
  intro a
  match a with
  | ⟨0, _⟩ =>
    show win0_3.index ⟨(i 0).val, _⟩ (0 : Fin 3) * 1 ≤ (i 0).val ∧ (i 0).val < win0_3.index ⟨(i 0).val, _⟩ (0 : Fin 3) * 1 + 1
    have e7' : win0_3.index ⟨(i 0).val, _⟩ (0 : Fin 3) = (i 0).val := e7
    omega
  | ⟨1, _⟩ =>
    show win0_3.index ⟨(i 0).val, _⟩ (1 : Fin 3) * 1024 ≤ (i 1).val ∧ (i 1).val < win0_3.index ⟨(i 0).val, _⟩ (1 : Fin 3) * 1024 + 1024
    omega
  | ⟨2, _⟩ =>
    show win0_3.index ⟨(i 0).val, _⟩ (2 : Fin 3) * 128 ≤ (i 2).val ∧ (i 2).val < win0_3.index ⟨(i 0).val, _⟩ (2 : Fin 3) * 128 + 128
    omega

/-- THE OUTPUT ARRAY after the region: the lookup in tiles. -/
theorem final (c : Dev nD) (hr : Cert.Embed.InRange (m ((c : Thread nD τ).loc main_arg0))) :
    (dats m 0 c).arrAt 3 cfg0.N
      = tiles (m ((c : Thread nD τ).loc main_arg0)) (m ((c : Thread nD τ).loc main_arg1)) (m ((c : Thread nD τ).loc main_arg2)) :=
  (dats m 0 c).arrAt_eq_of_cover 3 _ (fun t _ => flushed_eq m c hr t) cover

/-- The tiles laid out [524288, 128] are the lookup. -/
theorem reshape_tiles (elt : IVec S524288 32) (W : FVec Ideal S10080x128 .f32) (b : FVec Ideal S128 .f32) :
    shapeCast S524288x128 (tiles elt W b) shapeCasts_S512x1024x128_S524288x128 = Cert.Embed.lookup elt W b := by
  funext i
  obtain ⟨n, e, rfl⟩ : ∃ (n : Fin 524288) (e : Fin 128), i = ix2 n e := ⟨i 0, i 1, eq_ix2 i⟩
  have hn := n.isLt
  rw [shapeCast_apply (tiles elt W b) shapeCasts_S512x1024x128_S524288x128 (ix2 n e)
    (ix3 (⟨n.val / 1024, by omega⟩ : Fin 512) (⟨n.val % 1024, Nat.mod_lt _ (by omega)⟩ : Fin 1024) e) (by
      rw [Shape.rowMajor_val_two, Shape.rowMajor_val_three]
      show (n.val / 1024 * 1024 + n.val % 1024) * 128 + e.val = n.val * 128 + e.val
      have := Nat.div_add_mod n.val 1024
      omega), tiles_ix3]
  refine congrArg (Cert.Embed.lookup elt W b) ?_
  refine congrArg (fun q => ix2 q e) (Fin.ext ?_)
  show n.val / 1024 * 1024 + n.val % 1024 = n.val
  have := Nat.div_add_mod n.val 1024
  omega

/-- The result after the last host line: the output array laid out [524288, 128]. -/
theorem tail_eq (c : Dev nD) :
    (Pipeline.afterTail₀ cfgs (dats m) 0 (V0 m) [hostOps1] c main_v6 : FVec Ideal S524288x128 .f32)
      = shapeCast S524288x128 ((dats m 0 c).arrAt 3 cfg0.N) shapeCasts_S512x1024x128_S524288x128 := by
  unfold Pipeline.afterTail₀
  show StableHlo.after hostOps1 _ (Proc.devRef .tc main_v6) = _
  after_results
  show shapeCast S524288x128 (Pipeline.withArrays spec0 c (V0 m c) (fun w => (dats m 0 c).arrAt w cfg0.N)
    (Proc.devRef .tc (Pipeline.arrRef spec0 3))) shapeCasts_S512x1024x128_S524288x128 = _
  rw [Pipeline.withArrays_arr spec0 launch0.win.arr_inj c _ _ 3]

end Blocks

/-! ## The run -/

/-- From any memory whose words all name rows: every weakly fair execution of the kernel's program terminates with the
    result at the lookup of the argument arrays, and the arguments unchanged. -/
theorem run (m : (ℓ : Loc nD τ sig) → Buf (Elt Ideal) ℓ) (ρ : Dev nD → PrngReg)
    (hr : ∀ c : Dev nD, Cert.Embed.InRange (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v6)
        = Cert.Embed.lookup (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v6 (Pipeline.mem_restRefs_of main_v6 (by decide) (by decide))).trans
        ((tail_eq m c).trans (by rw [final m c (hr c)]; exact reshape_tiles _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Embed

end
-- ==== Proof.RefRun.lean ====
/-
  The reference's @main as one straight line. @main calls @_take, which calls @_where; a call means its callee's
  body on the operands, so with the two bodies substituted at their call sites @main is a sequence of twenty-six
  host operations: @_take's six up to the call of @_where (the zero and the table's row count broadcast over the
  tokens, the sign test, the sum), @_where's one select, @_take's remaining sixteen (the index column, the two
  bounds tests and their conjunction reduced over the column's single entry, the gather, the mask's broadcast,
  the fill constant and the select) and @main's own three (the bias broadcast twice, the sum). Every fair
  execution terminates with each buffer at the fold of those operations over the launch contents.
-/
import proofs.«418533_j26276609917323_3_alg».proof.Proof.Gen.ReferenceIdeal
import Idealize.ShloMosaic.Lib.StableHlo.Run

noncomputable section

namespace Cert.ReferenceIdeal.Embed

open Cert.ReferenceIdeal Cert.ReferenceIdeal.Gen Idealize.ShloMosaic Idealize.ShloMosaic.TcCoe Idealize.SL.Sem
  Idealize.ShloMosaic.StableHlo

variable {F : FTy → Type} [FloatOps F]

/-- @main's twenty-six operations in order, the calls unfolded: @_take's run into the record `main_call0`, the
    select of @_where into `main_call0.call0`, with @_take's arguments the table `main_arg1` and the tokens
    `main_arg0`. -/
abbrev ops : List (HloOp τ sig (Elt F)) :=
  [ TRef.nullary main_call0.c (constantI S_ 32 0#32),
    TRef.unary main_call0.c main_call0.v0 (broadcastInDim S524288 ![] bcast_S_S524288),
    TRef.binary (.of main_arg0) main_call0.v0 main_call0.v1 (cmpi .slt),
    TRef.nullary main_call0.c_0 (constantI S_ 32 10080#32),
    TRef.unary main_call0.c_0 main_call0.v2 (broadcastInDim S524288 ![] bcast_S_S524288),
    TRef.binary (.of main_arg0) main_call0.v2 main_call0.v3 addi,
    TRef.ternary main_call0.v1 main_call0.v3 (.of main_arg0) main_call0.call0.v0 select,
    TRef.unary main_call0.call0.v0 main_call0.v5 (broadcastInDim S524288x1 ![0] bcast_S524288_S524288x1_0),
    TRef.nullary main_call0.c_1 (constantI S1 32 10079#32),
    TRef.nullary main_call0.c_2 (constantI S_ 32 0#32),
    TRef.unary main_call0.c_2 main_call0.v6 (broadcastInDim S524288x1 ![] bcast_S_S524288x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S524288x1 ![0, 1] bcast_S1x1_S524288x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S524288x1_S524288_d1 h_S_),
    TRef.binary (.of main_arg1) main_call0.v5 main_call0.v13 (fun x i => Host.gather gather_S10080x128_S524288x1_S524288x128_1_0_n_n_0_1_1128 x i),
    TRef.unary main_call0.v12 main_call0.v14 (broadcastInDim S524288x128 ![0] bcast_S524288_S524288x128_0),
    TRef.nullary main_call0.cst (constant S_ .f32 0x7FC00000#32),
    TRef.unary main_call0.cst main_call0.v15 (broadcastInDim S524288x128 ![] bcast_S_S524288x128),
    TRef.ternary main_call0.v14 main_call0.v13 main_call0.v15 main_call0.v16 select,
    unary main_arg2 main_v1 (broadcastInDim S1x128 ![1] bcast_S128_S1x128_1 : (⟨S128, .f32⟩ : BufTy).Contents (Elt F) → (⟨S1x128, .f32⟩ : BufTy).Contents (Elt F)),
    unary main_v1 main_v2 (broadcastInDim S524288x128 ![0, 1] bcast_S1x128_S524288x128_0_1 : (⟨S1x128, .f32⟩ : BufTy).Contents (Elt F) → (⟨S524288x128, .f32⟩ : BufTy).Contents (Elt F)),
    binary main_v0 main_v2 main_v3 (addf : (⟨S524288x128, .f32⟩ : BufTy).Contents (Elt F) → (⟨S524288x128, .f32⟩ : BufTy).Contents (Elt F) → (⟨S524288x128, .f32⟩ : BufTy).Contents (Elt F)) ]

set_option maxRecDepth 1024 in
/-- @main is that straight line: with the two bodies unfolded at their calls and the records at their fields, both
    sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Embed

end
-- ==== Proof.LibRowGather.lean ====
/-
  A row lookup on the host, read at an index. What table[rows] of a matrix table : [N, C] at an integer array rows : [E]
  lowers to: a gather with offset axis 1, collapsed slice axis 0, start index map [0], slices of one whole row, over the
  rows laid out as [E, 1]. Result element (e, k) is the table at row rows[e, 0], read as a signed integer and kept inside
  [0, N − 1] as the host's gather keeps every start index, and at column k.
-/
import Idealize.ShloMosaic.Lib.ValueIdx

noncomputable section

namespace Cert.Lib.RowGather

open Idealize.ShloMosaic Idealize.ShloMosaic.ValueIdx

variable {α : Type}

/-- Those dimension numbers for a table [N, C], rows [E, 1] and result [E, C]; their conditions are decided on a
    program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Coordinates

variable {N C E w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the table's row axis the operand index is the start index: the word at (e, 0), signed, kept inside the table. -/
theorem coord_row :
    (rowDims N C E wf).start (ix2 e k) idx (0 : Fin 2) + (rowDims N C E wf).batchCoord (ix2 e k) (0 : Fin 2)
      + (rowDims N C E wf).offCoord (ix2 e k) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx (ix2 e k) ⟨List.idxOf (0 : Fin 2) (rowDims N C E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the table's column axis the operand index is the result's column. -/
theorem coord_col :
    (rowDims N C E wf).start (ix2 e k) idx (1 : Fin 2) + (rowDims N C E wf).batchCoord (ix2 e k) (1 : Fin 2)
      + (rowDims N C E wf).offCoord (ix2 e k) (1 : Fin 2) = k.val := by
  rw [GatherDims.batchCoord_eq_zero _ _ _ List.not_mem_nil]
  have hs : (rowDims N C E wf).start (ix2 e k) idx (1 : Fin 2) = 0 := by
    unfold GatherDims.start
    rw [dif_neg (fun h => absurd (congrArg Fin.val (List.mem_singleton.mp h)) Nat.one_ne_zero)]
  rw [hs]
  simp only [Nat.add_zero, Nat.zero_add]
  rfl

end Coordinates

/-- The lookup read at (e, k): row rows[e, 0] (signed, kept inside the table), column k. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ => exact coord_row wf idx e k
  | ⟨1, _⟩ => exact coord_col wf idx e k

end Cert.Lib.RowGather

end
-- ==== Proof.RefValue.lean ====
/-
  What the reference computes. With the two calls unfolded the result buffer holds one composed term of the
  argument arrays (refTerm): the gather of the table at the index column, kept where a mask is one and replaced by a
  fill constant elsewhere, plus the bias broadcast along the tokens. The index column is the token array with a
  negative token moved up by the row count; the mask at a token is the conjunction, over the column's single entry, of
  0 ≤ index and index ≤ 10079. When every token already names a row, the move does nothing, both bounds hold, the
  mask is one everywhere, the fill constant is never read, and the gather at (n, e) reads the table at the token's
  own row: the term is the lookup. The run then ends with the result buffer at the lookup of the argument buffers,
  which it leaves as they were.
-/
import proofs.«418533_j26276609917323_3_alg».proof.Proof.RefRun
import proofs.«418533_j26276609917323_3_alg».proof.Proof.Spec
import proofs.«418533_j26276609917323_3_alg».proof.Proof.LibRowGather
import Idealize.ShloMosaic.Lib.ReduceAll
import Idealize.ShloMosaic.Lib.Pipeline.Value
import Idealize.ShloMosaic.Lib.ValueIdx

noncomputable section

namespace Cert.ReferenceIdeal.Embed

open Cert.ReferenceIdeal Cert.ReferenceIdeal.Gen Idealize.ShloMosaic Idealize.ShloMosaic.TcCoe Idealize.SL.Sem
  Idealize.ShloMosaic.StableHlo Idealize.ShloMosaic.ValueIdx

/-! ## The composed term -/

/-- The tokens with a negative one moved up by the table's row count. -/
def wrapped (elt : IVec S524288 32) : IVec S524288 32 :=
  select (cmpi .slt elt (broadcastInDim S524288 ![] bcast_S_S524288 (constantI S_ 32 0#32)))
    (addi elt (broadcastInDim S524288 ![] bcast_S_S524288 (constantI S_ 32 10080#32))) elt

/-- Those as a column: the gather's start indices. -/
def idxCol (elt : IVec S524288 32) : IVec S524288x1 32 :=
  broadcastInDim S524288x1 ![0] bcast_S524288_S524288x1_0 (wrapped elt)

/-- Per token, whether its index lies in [0, 10079]: the two tests' conjunction folded over the column's one entry. -/
def mask (elt : IVec S524288 32) : IVec S524288 1 :=
  Host.reduce IntOp.andi
    (andi (cmpi .sge (idxCol elt) (broadcastInDim S524288x1 ![] bcast_S_S524288x1 (constantI S_ 32 0#32)))
      (cmpi .sle (idxCol elt)
        (broadcastInDim S524288x1 ![0, 1] bcast_S1x1_S524288x1_0_1
          (broadcastInDim S1x1 ![1] bcast_S1_S1x1_1 (constantI S1 32 10079#32)))))
    (constantI S_ 1 1#1) reducesTo_S524288x1_S524288_d1 h_S_

/-- The result buffer's term of the three arguments: the masked gather plus the broadcast bias. -/
def refTerm (elt : IVec S524288 32) (W : FVec Ideal S10080x128 .f32) (b : FVec Ideal S128 .f32) :
    FVec Ideal S524288x128 .f32 :=
  addf
    (select (broadcastInDim S524288x128 ![0] bcast_S524288_S524288x128_0 (mask elt))
      (Host.gather gather_S10080x128_S524288x1_S524288x128_1_0_n_n_0_1_1128 W (idxCol elt))
      (broadcastInDim S524288x128 ![] bcast_S_S524288x128 (constant (F := Ideal) S_ .f32 0x7FC00000#32)))
    (broadcastInDim S524288x128 ![0, 1] bcast_S1x128_S524288x128_0_1
      (broadcastInDim S1x128 ![1] bcast_S128_S1x128_1 b))

/-! ## The fold of the operations at the result and argument buffers -/

attribute [local irreducible] Host.reduce Host.gather in
set_option maxRecDepth 8192 in
set_option maxHeartbeats 400000 in
/-- The fold at the result buffer is the composed term, by computation: each operation's result decides whether the
    buffer read is the one it writes, and the typed references' transports are the identity at literal references.
    The fold over the column and the gather stay closed meanwhile: the equation never looks inside them. -/
theorem out_eq (V : Valuation τ sig (Elt Ideal)) :
    after (ops (F := Ideal)) V (main_v3 : DevRef τ sig)
      = refTerm (V (main_arg0 : DevRef τ sig)) (V (main_arg1 : DevRef τ sig)) (V (main_arg2 : DevRef τ sig)) := by
  simp only [after_cons, after_nil]
  rfl

theorem arg0_eq (V : Valuation τ sig (Elt Ideal)) :
    after (ops (F := Ideal)) V (main_arg0 : DevRef τ sig) = V (main_arg0 : DevRef τ sig) := by
  simp only [after_cons, after_nil]
  rfl

theorem arg1_eq (V : Valuation τ sig (Elt Ideal)) :
    after (ops (F := Ideal)) V (main_arg1 : DevRef τ sig) = V (main_arg1 : DevRef τ sig) := by
  simp only [after_cons, after_nil]
  rfl

theorem arg2_eq (V : Valuation τ sig (Elt Ideal)) :
    after (ops (F := Ideal)) V (main_arg2 : DevRef τ sig) = V (main_arg2 : DevRef τ sig) := by
  simp only [after_cons, after_nil]
  rfl

/-! ## The term is the lookup when every token names a row -/

section Value

variable (elt : IVec S524288 32) (W : FVec Ideal S10080x128 .f32) (b : FVec Ideal S128 .f32)

/-- A token that is not negative is not moved. -/
theorem wrapped_apply (hin : Cert.Embed.InRange elt) (n : Fin 524288) : wrapped elt (ix1 n) = elt (ix1 n) := by
  have h0 := (hin n).1
  have e0 : (0#32 : BitVec 32).toInt = 0 := by decide
  have hc : IntOp.cmpi .slt (elt (ix1 n)) 0#32 = 0#1 :=
    eq_zero_of_ne_one fun h => by
      have := IntOp.cmpi_slt.1 h
      rw [e0] at this
      omega
  show Scalar.select (IntOp.cmpi .slt (elt (ix1 n)) 0#32) _ _ = _
  rw [hc, select_zero]

/-- The column at (n, ·) is token n's entry. -/
theorem idxCol_apply (j : S524288x1.Idx) : idxCol elt j = wrapped elt (ix1 ⟨(j 0).val, idx2_lt0 j⟩) := by
  unfold idxCol
  refine broadcastInDim_apply _ _ _ _ _ (fun a => ?_)
  match a with
  | ⟨0, _⟩ => exact (if_neg (show ¬ (524288 : Nat) = 1 by decide)).symm

theorem idxCol_of_inRange (hin : Cert.Embed.InRange elt) (j : S524288x1.Idx) :
    idxCol elt j = elt (ix1 ⟨(j 0).val, idx2_lt0 j⟩) :=
  (idxCol_apply elt j).trans (wrapped_apply elt hin _)

/-- A left fold by `and` from one over ones is one. -/
theorem foldl_andi_ones {ι : Type} (x : ι → BitVec 1) (hx : ∀ i, x i = 1#1) :
    ∀ l : List ι, l.foldl (fun r i => IntOp.andi r (x i)) 1#1 = 1#1
  | [] => rfl
  | a :: l => by
    have e : IntOp.andi 1#1 1#1 = 1#1 := by decide
    show l.foldl _ (IntOp.andi 1#1 (x a)) = 1#1
    rw [hx a, e]
    exact foldl_andi_ones x hx l

/-- In range both bounds hold at every entry of the column, so the mask is one at every token. -/
theorem mask_apply (hin : Cert.Embed.InRange elt) (j : S524288.Idx) : mask elt j = 1#1 := by
  have e0 : (0#32 : BitVec 32).toInt = 0 := by decide
  have e1 : (10079#32 : BitVec 32).toInt = 10079 := by decide
  unfold mask
  rw [Host.reduce_eq_foldl]
  refine foldl_andi_ones _ (fun i => ?_) _
  have hi := hin ⟨(i 0).val, idx2_lt0 i⟩
  show IntOp.andi (IntOp.cmpi .sge (idxCol elt i) 0#32) (IntOp.cmpi .sle (idxCol elt i) 10079#32) = 1#1
  rw [idxCol_of_inRange elt hin i]
  exact IntOp.andi_eq_one.2 ⟨IntOp.cmpi_sge.2 (by rw [e0]; exact hi.1), IntOp.cmpi_sle.2 (by rw [e1]; omega)⟩

/-- The mask laid along the columns reads, at (n, e), the mask at n. -/
theorem maskRows_apply (n : Fin 524288) (e : Fin 128) :
    broadcastInDim S524288x128 ![0] bcast_S524288_S524288x128_0 (mask elt) (ix2 n e) = mask elt (ix1 n) := by
  refine broadcastInDim_apply _ _ _ _ _ (fun a => ?_)
  match a with
  | ⟨0, _⟩ => exact (if_neg (show ¬ (524288 : Nat) = 1 by decide)).symm

/-- The bias laid along the tokens reads, at (n, e), the bias at e. -/
theorem bias_apply (n : Fin 524288) (e : Fin 128) :
    broadcastInDim S524288x128 ![0, 1] bcast_S1x128_S524288x128_0_1
      (broadcastInDim S1x128 ![1] bcast_S128_S1x128_1 b) (ix2 n e) = b (ix1 e) := by
  refine (broadcastInDim_apply _ _ _ (ix2 n e) (ix2 (⟨0, Nat.one_pos⟩ : Fin 1) e) (fun a => ?_)).trans ?_
  · match a with
    | ⟨0, _⟩ => exact (if_pos rfl).symm
    | ⟨1, _⟩ => exact (if_neg (show ¬ (128 : Nat) = 1 by decide)).symm
  · refine broadcastInDim_apply _ _ _ _ _ (fun a => ?_)
    match a with
    | ⟨0, _⟩ => exact (if_neg (show ¬ (128 : Nat) = 1 by decide)).symm

/-- In range the gather at (n, e) reads the table at token n's own row, column e. -/
theorem gather_apply (hin : Cert.Embed.InRange elt) (n : Fin 524288) (e : Fin 128) :
    Host.gather gather_S10080x128_S524288x1_S524288x128_1_0_n_n_0_1_1128 W (idxCol elt) (ix2 n e) = W (ix2 (Cert.Embed.row elt n) e) := by
  have hrec : gather_S10080x128_S524288x1_S524288x128_1_0_n_n_0_1_1128
      = Cert.Lib.RowGather.rowDims 10080 128 524288 gather_S10080x128_S524288x1_S524288x128_1_0_n_n_0_1_1128_wf := rfl
  rw [hrec, Cert.Lib.RowGather.rowGather_apply (by decide : 0 < 10080)]
  refine congrArg W (congrArg (fun r => ix2 r e) (Fin.ext ?_))
  show min (idxCol elt (ix2 n ⟨0, Nat.one_pos⟩)).toInt.toNat (10080 - 1) = min (elt (ix1 n)).toInt.toNat (10080 - 1)
  rw [idxCol_of_inRange elt hin]

/-- When every token names a row of the table, the reference's term is the lookup. -/
theorem refTerm_eq_lookup (hin : Cert.Embed.InRange elt) : refTerm elt W b = Cert.Embed.lookup elt W b := by
  funext i
  obtain ⟨n, e, rfl⟩ : ∃ (n : Fin 524288) (e : Fin 128), i = ix2 n e := ⟨_, _, eq_ix2 i⟩
  rw [Cert.Embed.lookup_ix2]
  unfold refTerm
  rw [addf_apply, select_apply, bias_apply, gather_apply elt W hin, maskRows_apply, mask_apply elt hin, select_one]

end Value

/-! ## The run -/

/-- From any memory whose token buffer names only rows of the table, with zero counters: every weakly fair execution
    of @main terminates with the result buffer at the lookup of the three argument buffers' launch contents, and the
    argument buffers unchanged. -/
theorem run (m : (ℓ : Loc Cert.ReferenceIdeal.nD Cert.ReferenceIdeal.τ Cert.ReferenceIdeal.sig) → Buf (Elt Ideal) ℓ)
    (ρ : Dev Cert.ReferenceIdeal.nD → PrngReg)
    (hr : ∀ c : Dev Cert.ReferenceIdeal.nD, Cert.Embed.InRange
      (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v3)
        = Cert.Embed.lookup
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) :=
  (θ_run defs _ _).mono
    (fun _ h c =>
      ⟨(h c main_v3).trans ((out_eq _).trans (refTerm_eq_lookup _ _ _ (hr c))),
        (h c main_arg0).trans (arg0_eq _), (h c main_arg1).trans (arg1_eq _), (h c main_arg2).trans (arg2_eq _)⟩)
    (run_main m ρ)

end Cert.ReferenceIdeal.Embed

end
-- ==== Proof.PreRange.lean ====
/-
  What the printed precondition says of the tokens. Its last conjunct is the conjunction, over all tokens, of
  0 ≤ elt[n] and elt[n] < 10080, both read signed, folded from the constant one. If the whole predicate is one
  then so is that conjunct, hence every term of the fold, hence both comparisons at every token: every token names a
  row of the table.
-/
import proofs.«418533_j26276609917323_3_alg».proof.Pre_finite_inputs
import proofs.«418533_j26276609917323_3_alg».proof.Proof.Gen.Pre_finite_inputs
import proofs.«418533_j26276609917323_3_alg».proof.Proof.Spec
import Idealize.ShloMosaic.Lib.ReduceAll

noncomputable section

namespace Cert.Embed

open Idealize.ShloMosaic Idealize.ShloMosaic.ValueIdx

/-- The rank-zero shape has one index. -/
instance subsingleton_scalarIdx : Subsingleton Cert.Pre_finite_inputs.S_.Idx :=
  ⟨fun _ _ => funext fun d => d.elim0⟩

/-- If the printed predicate of (elt, W, b) is one, every token is a row of the table. -/
theorem inRange_of_pre [Cert.Pre_finite_inputs.Facts] (elt : IVec Cert.Pre_finite_inputs.S524288 32)
    (W : FVec Ideal Cert.Pre_finite_inputs.S10080x128 .f32) (b : FVec Ideal Cert.Pre_finite_inputs.S128 .f32)
    (h : Cert.Pre_finite_inputs.fn (F := Ideal) elt W b = fun _ => 1#1) : Cert.Embed.InRange elt := by
  have h0 := congrFun h ix0
  dsimp only [Cert.Pre_finite_inputs.fn] at h0
  -- the outer conjunction is one, so its right operand, the fold over the tokens, is one
  have hall := (IntOp.andi_eq_one.1 h0).2
  intro n
  -- so the term of the fold at token n is one, and with it both comparisons there
  have hn := IntOp.andi_eq_one.1 (Host.reduce_andi_all _ _ _ _ _ hall (ix1 n))
  have hge := IntOp.cmpi_sge.1 hn.1
  have hlt := IntOp.cmpi_slt.1 hn.2
  -- the two bounds are the constants 0 and 10080 read at any index
  have e0 : (0#32 : BitVec 32).toInt = 0 := by decide
  have e1 : (10080#32 : BitVec 32).toInt = 10080 := by decide
  exact ⟨e0 ▸ hge, e1 ▸ hlt⟩

end Cert.Embed

end
-- ==== Proof.lean ====
/-
  An embedding lookup, computed two ways, is one function of its arguments.

  The arguments are token words elt : [524288] (32-bit integers), a table W : [10080, 128] and a bias b : [128]. The
  reference gathers: entry (n, e) of its result is W[elt[n], e] + b[e] (jnp's take wraps a negative word by the table's
  height, keeps the start index inside the table, and masks a word that is still out of range; for a word in
  [0, 10080) none of that does anything). The kernel multiplies: it keeps each word inside [0, 10079], appends 160 zero
  rows to the table, and for each tile of 1024 tokens and each band of 1024 rows forms the indicator matrix
  H[p, k] = [word p = first row of the band + k] and adds H times the band's rows into an accumulator, then adds the bias
  row. Over the extended reals 0 x = 0 and 1 x = x for every x, so the ten products' sum at (p, e) is the one row the
  word names: W[elt[n], e], and the zero rows are never named. No finiteness of W or b is used.

  The claim is stated for words that name a row, 0 ≤ elt[n] < 10080: outside that range the reference indexes out of the
  table (it wraps or masks) while the kernel clips, and the two differ. Under it both runs end at the function
  Cert.Embed.lookup of the argument arrays (Proof/Spec.lean): the kernel's run is Proof/KernelFinal.lean (over
  KernelChunk, KernelBody, KernelHost), the reference's Proof/RefValue.lean (over RefRun), and the range is read out
  of the precondition in Proof/PreRange.lean. The three frames are the two kernel programs' frame runs and the
  reference's run with its result dropped; the idealization rewrote nothing, so preserves has nothing to state.
-/
import proofs.«418533_j26276609917323_3_alg».proof.Defs
import proofs.«418533_j26276609917323_3_alg».proof.Proof.Gen.Kernel
import proofs.«418533_j26276609917323_3_alg».proof.Proof.Gen.Kernel.Skeleton
import proofs.«418533_j26276609917323_3_alg».proof.Proof.Gen.Kernel.Launch
import proofs.«418533_j26276609917323_3_alg».proof.Proof.Gen.Kernel.Points
import proofs.«418533_j26276609917323_3_alg».proof.Proof.Gen.Kernel.Frame
import proofs.«418533_j26276609917323_3_alg».proof.Proof.Gen.KernelIdeal
import proofs.«418533_j26276609917323_3_alg».proof.Proof.Gen.KernelIdeal.Skeleton
import proofs.«418533_j26276609917323_3_alg».proof.Proof.Gen.KernelIdeal.Launch
import proofs.«418533_j26276609917323_3_alg».proof.Proof.Gen.KernelIdeal.Points
import proofs.«418533_j26276609917323_3_alg».proof.Proof.Gen.KernelIdeal.Frame
import proofs.«418533_j26276609917323_3_alg».proof.Proof.Gen.ReferenceIdeal
import proofs.«418533_j26276609917323_3_alg».proof.Proof.Gen.Pre_finite_inputs
import proofs.«418533_j26276609917323_3_alg».proof.Proof.KernelFinal
import proofs.«418533_j26276609917323_3_alg».proof.Proof.RefValue
import proofs.«418533_j26276609917323_3_alg».proof.Proof.PreRange
import Idealize.ShloMosaic.Adequacy
import Idealize.ShloMosaic.Init

noncomputable section

namespace Cert.Proof

open Idealize.ShloMosaic Idealize.SL.Sem

/-- The word-level kernel's frame: its frame run. -/
theorem frame_k : Cert.frame_Kernel := fun m ρ _ => Cert.Kernel.Gen.frame m ρ

/-- The idealized kernel's frame: its frame run. -/
theorem frame_ki : Cert.frame_KernelIdeal := fun m ρ _ => Cert.KernelIdeal.Gen.frame m ρ

/-- The reference's frame: its run, the words in range by the precondition, with the result dropped. -/
theorem frame_ri : Cert.frame_ReferenceIdeal := fun m ρ hpre =>
  (θ_run Cert.ReferenceIdeal.defs _ _).mono (fun _ h c => (h c).2)
    (Cert.ReferenceIdeal.Embed.run m ρ fun c => Cert.Embed.inRange_of_pre _ _ _ (hpre c))

/-- Both idealized programs, from memories that agree on the arguments, end at the lookup of the argument arrays. -/
theorem algebraic : Cert.algebraic_KernelIdeal_ReferenceIdeal := by
  intro m ρ m' ρ' hpre hagree
  have hr : ∀ c : Dev Cert.KernelIdeal.nD, Cert.Embed.InRange
      (m ((c.tc : Thread Cert.KernelIdeal.nD Cert.KernelIdeal.τ).loc Cert.KernelIdeal.main_arg0)) :=
    fun c => Cert.Embed.inRange_of_pre _ _ _ (hpre c)
  refine ⟨_, Cert.KernelIdeal.Embed.run m ρ hr, ?_⟩
  refine (θ_run Cert.ReferenceIdeal.defs _ _).mono (fun _ h c => ⟨(h c).1.trans ?_, (h c).2⟩)
    (Cert.ReferenceIdeal.Embed.run m' ρ' fun c => by rw [(hagree c).1]; exact hr c)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
